-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x310 : Shape := ⟨2, ![131072, 310]⟩
abbrev S131072x100 : Shape := ⟨2, ![131072, 100]⟩
abbrev S310x10 : Shape := ⟨2, ![310, 10]⟩
abbrev S10 : Shape := ⟨1, ![10]⟩
abbrev S10x128 : Shape := ⟨2, ![10, 128]⟩
abbrev S128 : Shape := ⟨1, ![128]⟩
abbrev S128x2 : Shape := ⟨2, ![128, 2]⟩
abbrev S2 : Shape := ⟨1, ![2]⟩
abbrev S_ : Shape := ⟨0, ![]⟩

class Facts : Prop where
  bcast_S_S131072x310 : S_.BroadcastsInDim S131072x310 (![] : Fin 0 → Fin S131072x310.rank)
  reducesTo_S131072x310_S_d0_1 : S131072x310.ReducesTo [0, 1] S_
  h_S_ : 0 < S_.numel
  bcast_S_S131072x100 : S_.BroadcastsInDim S131072x100 (![] : Fin 0 → Fin S131072x100.rank)
  reducesTo_S131072x100_S_d0_1 : S131072x100.ReducesTo [0, 1] S_
  bcast_S_S310x10 : S_.BroadcastsInDim S310x10 (![] : Fin 0 → Fin S310x10.rank)
  reducesTo_S310x10_S_d0_1 : S310x10.ReducesTo [0, 1] S_
  bcast_S_S10 : S_.BroadcastsInDim S10 (![] : Fin 0 → Fin S10.rank)
  reducesTo_S10_S_d0 : S10.ReducesTo [0] S_
  bcast_S_S10x128 : S_.BroadcastsInDim S10x128 (![] : Fin 0 → Fin S10x128.rank)
  reducesTo_S10x128_S_d0_1 : S10x128.ReducesTo [0, 1] S_
  bcast_S_S128 : S_.BroadcastsInDim S128 (![] : Fin 0 → Fin S128.rank)
  reducesTo_S128_S_d0 : S128.ReducesTo [0] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg7 : FVec F S2 .f32) (main_v33 : IVec S_ 1) : IVec S_ 1 :=
  let main_v34 : FVec F S2 .f32 := Host.absf main_arg7
  let main_cst_12 : FVec F S_ .f32 := constant S_ .f32 0x7F800000#32
  let main_v35 : FVec F S2 .f32 := broadcastInDim S2 ![] bcast_S_S2 main_cst_12
  let main_v36 : IVec S2 1 := cmpf .olt main_v34 main_v35
  let main_c_13 : IVec S_ 1 := constantI S_ 1 1#1
  let main_v37 : IVec S_ 1 := (fun x v => Host.reduce IntOp.andi x v reducesTo_S2_S_d0 h_S_) main_v36 main_c_13
  let main_v38 : IVec S_ 1 := andi main_v33 main_v37
  main_v38

def fn_part1 {F : FTy → Type} [FloatOps F] (main_arg4 : FVec F S10x128 .f32) (main_arg5 : FVec F S128 .f32) (main_arg6 : FVec F S128x2 .f32) (main_arg7 : FVec F S2 .f32) (main_v13 : IVec S_ 1) (main_v16 : IVec S10 1) : IVec S_ 1 :=
  let main_c_5 : IVec S_ 1 := constantI S_ 1 1#1
  let main_v17 : IVec S_ 1 := (fun x v => Host.reduce IntOp.andi x v reducesTo_S10_S_d0 h_S_) main_v16 main_c_5
  let main_v18 : IVec S_ 1 := andi main_v13 main_v17
  let main_v19 : FVec F S10x128 .f32 := Host.absf main_arg4
  let main_cst_6 : FVec F S_ .f32 := constant S_ .f32 0x7F800000#32
  let main_v20 : FVec F S10x128 .f32 := broadcastInDim S10x128 ![] bcast_S_S10x128 main_cst_6
  let main_v21 : IVec S10x128 1 := cmpf .olt main_v19 main_v20
  let main_c_7 : IVec S_ 1 := constantI S_ 1 1#1
  let main_v22 : IVec S_ 1 := (fun x v => Host.reduce IntOp.andi x v reducesTo_S10x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x2 .f32 := Host.absf main_arg6
  let main_cst_10 : FVec F S_ .f32 := constant S_ .f32 0x7F800000#32
  let main_v30 : FVec F S128x2 .f32 := broadcastInDim S128x2 ![] bcast_S_S128x2 main_cst_10
  let main_v31 : IVec S128x2 1 := cmpf .olt main_v29 main_v30
  let main_c_11 : IVec S_ 1 := constantI S_ 1 1#1
  let main_v32 : IVec S_ 1 := (fun x v => Host.reduce IntOp.andi x v reducesTo_S128x2_S_d0_1 h_S_) main_v31 main_c_11
  let main_v33 : IVec S_ 1 := andi main_v28 main_v32
  fn_part2 (F := F) main_arg7 main_v33

def fn {F : FTy → Type} [FloatOps F] (main_arg0 : FVec F S131072x310 .f32) (main_arg1 : FVec F S131072x100 .f32) (main_arg2 : FVec F S310x10 .f32) (main_arg3 : FVec F S10 .f32) (main_arg4 : FVec F S10x128 .f32) (main_arg5 : FVec F S128 .f32) (main_arg6 : FVec F S128x2 .f32) (main_arg7 : FVec F S2 .f32) : IVec S_ 1 :=
  let main_v0 : FVec F S131072x310 .f32 := Host.absf main_arg0
  let main_cst : FVec F S_ .f32 := constant S_ .f32 0x7F800000#32
  let main_v1 : FVec F S131072x310 .f32 := broadcastInDim S131072x310 ![] bcast_S_S131072x310 main_cst
  let main_v2 : IVec S131072x310 1 := cmpf .olt main_v0 main_v1
  let main_c : IVec S_ 1 := constantI S_ 1 1#1
  let main_v3 : IVec S_ 1 := (fun x v => Host.reduce IntOp.andi x v reducesTo_S131072x310_S_d0_1 h_S_) main_v2 main_c
  let main_v4 : FVec F S131072x100 .f32 := Host.absf main_arg1
  let main_cst_0 : FVec F S_ .f32 := constant S_ .f32 0x7F800000#32
  let main_v5 : FVec F S131072x100 .f32 := broadcastInDim S131072x100 ![] bcast_S_S131072x100 main_cst_0
  let main_v6 : IVec S131072x100 1 := cmpf .olt main_v4 main_v5
  let main_c_1 : IVec S_ 1 := constantI S_ 1 1#1
  let main_v7 : IVec S_ 1 := (fun x v => Host.reduce IntOp.andi x v reducesTo_S131072x100_S_d0_1 h_S_) main_v6 main_c_1
  let main_v8 : IVec S_ 1 := andi main_v3 main_v7
  let main_v9 : FVec F S310x10 .f32 := Host.absf main_arg2
  let main_cst_2 : FVec F S_ .f32 := constant S_ .f32 0x7F800000#32
  let main_v10 : FVec F S310x10 .f32 := broadcastInDim S310x10 ![] bcast_S_S310x10 main_cst_2
  let main_v11 : IVec S310x10 1 := cmpf .olt main_v9 main_v10
  let main_c_3 : IVec S_ 1 := constantI S_ 1 1#1
  let main_v12 : IVec S_ 1 := (fun x v => Host.reduce IntOp.andi x v reducesTo_S310x10_S_d0_1 h_S_) main_v11 main_c_3
  let main_v13 : IVec S_ 1 := andi main_v8 main_v12
  let main_v14 : FVec F S10 .f32 := Host.absf main_arg3
  let main_cst_4 : FVec F S_ .f32 := constant S_ .f32 0x7F800000#32
  let main_v15 : FVec F S10 .f32 := broadcastInDim S10 ![] bcast_S_S10 main_cst_4
  let main_v16 : IVec S10 1 := cmpf .olt main_v14 main_v15
  fn_part1 (F := F) main_arg4 main_arg5 main_arg6 main_arg7 main_v13 main_v16
-- ==== Kernel.lean ====
abbrev S131072x310 : Shape := ⟨2, ![131072, 310]⟩
abbrev S131072x100 : Shape := ⟨2, ![131072, 100]⟩
abbrev S310x10 : Shape := ⟨2, ![310, 10]⟩
abbrev S10 : Shape := ⟨1, ![10]⟩
abbrev S10x128 : Shape := ⟨2, ![10, 128]⟩
abbrev S128 : Shape := ⟨1, ![128]⟩
abbrev S128x2 : Shape := ⟨2, ![128, 2]⟩
abbrev S2 : Shape := ⟨1, ![2]⟩
abbrev S4096x310 : Shape := ⟨2, ![4096, 310]⟩
abbrev S4096x100 : Shape := ⟨2, ![4096, 100]⟩
abbrev S4096x10 : Shape := ⟨2, ![4096, 10]⟩
abbrev S1x10 : Shape := ⟨2, ![1, 10]⟩
abbrev S4096x128 : Shape := ⟨2, ![4096, 128]⟩
abbrev S1x128 : Shape := ⟨2, ![1, 128]⟩
abbrev S4096x2 : Shape := ⟨2, ![4096, 2]⟩
abbrev S1x2 : Shape := ⟨2, ![1, 2]⟩
abbrev S4096x1 : Shape := ⟨2, ![4096, 1]⟩

abbrev nBuf : Space → Nat
  | .hbm => 9
  | .vmem => 12
  | .smem => 0
  | _ => 0

abbrev bufTy : (tb : Table) → Fin (tcTables nBuf tb) → BufTy
  | .hbm, ⟨0, _⟩ => ⟨S131072x310, .f32⟩
  | .hbm, ⟨1, _⟩ => ⟨S131072x100, .f32⟩
  | .hbm, ⟨2, _⟩ => ⟨S310x10, .f32⟩
  | .hbm, ⟨3, _⟩ => ⟨S10, .f32⟩
  | .hbm, ⟨4, _⟩ => ⟨S10x128, .f32⟩
  | .hbm, ⟨5, _⟩ => ⟨S128, .f32⟩
  | .hbm, ⟨6, _⟩ => ⟨S128x2, .f32⟩
  | .hbm, ⟨7, _⟩ => ⟨S2, .f32⟩
  | .hbm, ⟨8, _⟩ => ⟨S131072x100, .f32⟩
  | .local _ .vmem, ⟨0, _⟩ => ⟨S4096x310, .f32⟩
  | .local _ .vmem, ⟨1, _⟩ => ⟨S4096x310, .f32⟩
  | .local _ .vmem, ⟨2, _⟩ => ⟨S4096x100, .f32⟩
  | .local _ .vmem, ⟨3, _⟩ => ⟨S4096x100, .f32⟩
  | .local _ .vmem, ⟨4, _⟩ => ⟨S310x10, .f32⟩
  | .local _ .vmem, ⟨5, _⟩ => ⟨S10, .f32⟩
  | .local _ .vmem, ⟨6, _⟩ => ⟨S10x128, .f32⟩
  | .local _ .vmem, ⟨7, _⟩ => ⟨S128, .f32⟩
  | .local _ .vmem, ⟨8, _⟩ => ⟨S128x2, .f32⟩
  | .local _ .vmem, ⟨9, _⟩ => ⟨S2, .f32⟩
  | .local _ .vmem, ⟨10, _⟩ => ⟨S4096x100, .f32⟩
  | .local _ .vmem, ⟨11, _⟩ => ⟨S4096x100, .f32⟩
  | _, _ => ⟨S131072x310, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x310 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x100 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S310x10 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S10 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S10x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x2 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S4096x100 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  inb_S4096x310_S4096x310_0_0 : ∀ a, (![0, 0] : Fin 2 → Nat) a + S4096x310.size a ≤ S4096x310.size a
  h_S4096x310 : 0 < S4096x310.numel
  inb_S310x10_S310x10_0_0 : ∀ a, (![0, 0] : Fin 2 → Nat) a + S310x10.size a ≤ S310x10.size a
  h_S310x10 : 0 < S310x10.numel
  inb_S10_S10_0 : ∀ a, (![0] : Fin 1 → Nat) a + S10.size a ≤ S10.size a
  h_S10 : 0 < S10.numel
  shapeCasts_S10_S1x10 : S10.ShapeCasts S1x10
  broadcasts_S1x10_S4096x10 : S1x10.Broadcasts S4096x10
  inb_S10x128_S10x128_0_0 : ∀ a, (![0, 0] : Fin 2 → Nat) a + S10x128.size a ≤ S10x128.size a
  h_S10x128 : 0 < S10x128.numel
  inb_S128_S128_0 : ∀ a, (![0] : Fin 1 → Nat) a + S128.size a ≤ S128.size a
  h_S128 : 0 < S128.numel
  shapeCasts_S128_S1x128 : S128.ShapeCasts S1x128
  broadcasts_S1x128_S4096x128 : S1x128.Broadcasts S4096x128
  inb_S128x2_S128x2_0_0 : ∀ a, (![0, 0] : Fin 2 → Nat) a + S128x2.size a ≤ S128x2.size a
  h_S128x2 : 0 < S128x2.numel
  inb_S2_S2_0 : ∀ a, (![0] : Fin 1 → Nat) a + S2.size a ≤ S2.size a
  h_S2 : 0 < S2.numel
  shapeCasts_S2_S1x2 : S2.ShapeCasts S1x2
  broadcasts_S1x2_S4096x2 : S1x2.Broadcasts S4096x2
  inb_S4096x100_S4096x100_0_0 : ∀ a, (![0, 0] : Fin 2 → Nat) a + S4096x100.size a ≤ S4096x100.size a
  h_S4096x100 : 0 < S4096x100.numel
  slices_S4096x2_o0_0_S4096x1 : S4096x2.Slices ![0, 0] S4096x1
  broadcasts_S4096x1_S4096x100 : S4096x1.Broadcasts S4096x100
  slices_S4096x2_o0_1_S4096x1 : S4096x2.Slices ![0, 1] S4096x1
  dot_S4096x310_S310x10_S4096x10_1_0_0_1_n_n_wf : DotDims.WF S4096x310 S310x10 S4096x10 [1] [0] [0] [1] [] []
  dot_S4096x10_S10x128_S4096x128_1_0_0_1_n_n_wf : DotDims.WF S4096x10 S10x128 S4096x128 [1] [0] [0] [1] [] []
  dot_S4096x128_S128x2_S4096x2_1_0_0_1_n_n_wf : DotDims.WF S4096x128 S128x2 S4096x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x310.size a ≤ S131072x310.size a
  hwx0_0 : ∀ i : grid0.Coords, EltTy.bits .f32 = 32 ∨ (Rect.block (s := S131072x310) S4096x310.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x100.size a ≤ S131072x100.size a
  hwx0_1 : ∀ i : grid0.Coords, EltTy.bits .f32 = 32 ∨ (Rect.block (s := S131072x100) S4096x100.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S310x10.size a ≤ S310x10.size a
  hwx0_2 : ∀ i : grid0.Coords, EltTy.bits .f32 = 32 ∨ (Rect.block (s := S310x10) S310x10.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S10.size a ≤ S10.size a
  hwx0_3 : ∀ i : grid0.Coords, EltTy.bits .f32 = 32 ∨ (Rect.block (s := S10) S10.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S10x128.size a ≤ S10x128.size a
  hwx0_4 : ∀ i : grid0.Coords, EltTy.bits .f32 = 32 ∨ (Rect.block (s := S10x128) S10x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x2.size a ≤ S128x2.size a
  hwx0_6 : ∀ i : grid0.Coords, EltTy.bits .f32 = 32 ∨ (Rect.block (s := S128x2) S128x2.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S2.size a ≤ S2.size a
  hwx0_7 : ∀ i : grid0.Coords, EltTy.bits .f32 = 32 ∨ (Rect.block (s := S2) S2.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S4096x100.size a ≤ S131072x100.size a
  hwx0_8 : ∀ i : grid0.Coords, EltTy.bits .f32 = 32 ∨ (Rect.block (s := S131072x100) S4096x100.size (cc0_transform_8 i) (hinb0_8 i)).WholeWords (EltTy.packing .f32)

variable [Facts₀]

def dot_S4096x310_S310x10_S4096x10_1_0_0_1_n_n : DotDims S4096x310 S310x10 S4096x10 where
  lhsContracting := [1]
  rhsContracting := [0]
  lhsNonContracting := [0]
  rhsNonContracting := [1]
  lhsBatch := []
  rhsBatch := []
  wf := dot_S4096x310_S310x10_S4096x10_1_0_0_1_n_n_wf
def dot_S4096x10_S10x128_S4096x128_1_0_0_1_n_n : DotDims S4096x10 S10x128 S4096x128 where
  lhsContracting := [1]
  rhsContracting := [0]
  lhsNonContracting := [0]
  rhsNonContracting := [1]
  lhsBatch := []
  rhsBatch := []
  wf := dot_S4096x10_S10x128_S4096x128_1_0_0_1_n_n_wf
def dot_S4096x128_S128x2_S4096x2_1_0_0_1_n_n : DotDims S4096x128 S128x2 S4096x2 where
  lhsContracting := [1]
  rhsContracting := [0]
  lhsNonContracting := [0]
  rhsNonContracting := [1]
  lhsBatch := []
  rhsBatch := []
  wf := dot_S4096x128_S128x2_S4096x2_1_0_0_1_n_n_wf

abbrev win0_0 : Pipeline.Window sig grid0 :=
  Pipeline.Window.ofSpec (Memref.whole main_arg0) S4096x310.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x100.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S310x10.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S10.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S10x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S128x2.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S2.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v0) S4096x100.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S131072x310 : Shape := ⟨2, ![131072, 310]⟩
abbrev S131072x100 : Shape := ⟨2, ![131072, 100]⟩
abbrev S310x10 : Shape := ⟨2, ![310, 10]⟩
abbrev S10 : Shape := ⟨1, ![10]⟩
abbrev S10x128 : Shape := ⟨2, ![10, 128]⟩
abbrev S128 : Shape := ⟨1, ![128]⟩
abbrev S128x2 : Shape := ⟨2, ![128, 2]⟩
abbrev S2 : Shape := ⟨1, ![2]⟩
abbrev S131072x10 : Shape := ⟨2, ![131072, 10]⟩
abbrev S1x10 : Shape := ⟨2, ![1, 10]⟩
abbrev S_ : Shape := ⟨0, ![]⟩
abbrev S131072x128 : Shape := ⟨2, ![131072, 128]⟩
abbrev S1x128 : Shape := ⟨2, ![1, 128]⟩
abbrev S131072x2 : Shape := ⟨2, ![131072, 2]⟩
abbrev S1x2 : Shape := ⟨2, ![1, 2]⟩
abbrev S131072x1 : Shape := ⟨2, ![131072, 1]⟩

abbrev nBuf : Space → Nat
  | .hbm => 49
  | .vmem => 0
  | .smem => 0
  | _ => 0

abbrev bufTy : (tb : Table) → Fin (tcTables nBuf tb) → BufTy
  | .hbm, ⟨0, _⟩ => ⟨S131072x310, .f32⟩
  | .hbm, ⟨1, _⟩ => ⟨S131072x100, .f32⟩
  | .hbm, ⟨2, _⟩ => ⟨S310x10, .f32⟩
  | .hbm, ⟨3, _⟩ => ⟨S10, .f32⟩
  | .hbm, ⟨4, _⟩ => ⟨S10x128, .f32⟩
  | .hbm, ⟨5, _⟩ => ⟨S128, .f32⟩
  | .hbm, ⟨6, _⟩ => ⟨S128x2, .f32⟩
  | .hbm, ⟨7, _⟩ => ⟨S2, .f32⟩
  | .hbm, ⟨8, _⟩ => ⟨S131072x10, .f32⟩
  | .hbm, ⟨9, _⟩ => ⟨S1x10, .f32⟩
  | .hbm, ⟨10, _⟩ => ⟨S131072x10, .f32⟩
  | .hbm, ⟨11, _⟩ => ⟨S131072x10, .f32⟩
  | .hbm, ⟨12, _⟩ => ⟨S_, .f32⟩
  | .hbm, ⟨13, _⟩ => ⟨S131072x10, .f32⟩
  | .hbm, ⟨14, _⟩ => ⟨S131072x10, .i1⟩
  | .hbm, ⟨15, _⟩ => ⟨S_, .f32⟩
  | .hbm, ⟨16, _⟩ => ⟨S131072x10, .f32⟩
  | .hbm, ⟨17, _⟩ => ⟨S131072x10, .f32⟩
  | .hbm, ⟨18, _⟩ => ⟨S131072x10, .f32⟩
  | .hbm, ⟨19, _⟩ => ⟨S131072x128, .f32⟩
  | .hbm, ⟨20, _⟩ => ⟨S1x128, .f32⟩
  | .hbm, ⟨21, _⟩ => ⟨S131072x128, .f32⟩
  | .hbm, ⟨22, _⟩ => ⟨S131072x128, .f32⟩
  | .hbm, ⟨23, _⟩ => ⟨S_, .f32⟩
  | .hbm, ⟨24, _⟩ => ⟨S131072x128, .f32⟩
  | .hbm, ⟨25, _⟩ => ⟨S131072x128, .i1⟩
  | .hbm, ⟨26, _⟩ => ⟨S_, .f32⟩
  | .hbm, ⟨27, _⟩ => ⟨S131072x128, .f32⟩
  | .hbm, ⟨28, _⟩ => ⟨S131072x128, .f32⟩
  | .hbm, ⟨29, _⟩ => ⟨S131072x128, .f32⟩
  | .hbm, ⟨30, _⟩ => ⟨S131072x2, .f32⟩
  | .hbm, ⟨31, _⟩ => ⟨S1x2, .f32⟩
  | .hbm, ⟨32, _⟩ => ⟨S131072x2, .f32⟩
  | .hbm, ⟨33, _⟩ => ⟨S131072x2, .f32⟩
  | .hbm, ⟨34, _⟩ => ⟨S_, .f32⟩
  | .hbm, ⟨35, _⟩ => ⟨S131072x2, .f32⟩
  | .hbm, ⟨36, _⟩ => ⟨S131072x2, .i1⟩
  | .hbm, ⟨37, _⟩ => ⟨S_, .f32⟩
  | .hbm, ⟨38, _⟩ => ⟨S131072x2, .f32⟩
  | .hbm, ⟨39, _⟩ => ⟨S131072x2, .f32⟩
  | .hbm, ⟨40, _⟩ => ⟨S131072x2, .f32⟩
  | .hbm, ⟨41, _⟩ => ⟨S131072x100, .f32⟩
  | .hbm, ⟨42, _⟩ => ⟨S131072x1, .f32⟩
  | .hbm, ⟨43, _⟩ => ⟨S131072x100, .f32⟩
  | .hbm, ⟨44, _⟩ => ⟨S131072x100, .f32⟩
  | .hbm, ⟨45, _⟩ => ⟨S131072x1, .f32⟩
  | .hbm, ⟨46, _⟩ => ⟨S131072x100, .f32⟩
  | .hbm, ⟨47, _⟩ => ⟨S131072x100, .f32⟩
  | .hbm, ⟨48, _⟩ => ⟨S131072x100, .f32⟩
  | _, _ => ⟨S131072x310, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_3 : Ref sig .tc := ⟨.hbm, 34, rfl⟩
abbrev main_v22 : Ref sig .tc := ⟨.hbm, 35, rfl⟩
abbrev main_v23 : Ref sig .tc := ⟨.hbm, 36, rfl⟩
abbrev main_cst_4 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩

abbrev nD : Nat := 1
abbrev τ : Topo := Topo.v7x

variable {F : FTy → Type} [FloatOps F]

class Facts₀ : Prop where
  bcast_S10_S1x10_1 : S10.BroadcastsInDim S1x10 (![1] : Fin 1 → Fin S1x10.rank)
  bcast_S1x10_S131072x10_0_1 : S1x10.BroadcastsInDim S131072x10 (![0, 1] : Fin 2 → Fin S131072x10.rank)
  bcast_S_S131072x10 : S_.BroadcastsInDim S131072x10 (![] : Fin 0 → Fin S131072x10.rank)
  bcast_S128_S1x128_1 : S128.BroadcastsInDim S1x128 (![1] : Fin 1 → Fin S1x128.rank)
  bcast_S1x128_S131072x128_0_1 : S1x128.BroadcastsInDim S131072x128 (![0, 1] : Fin 2 → Fin S131072x128.rank)
  bcast_S_S131072x128 : S_.BroadcastsInDim S131072x128 (![] : Fin 0 → Fin S131072x128.rank)
  bcast_S2_S1x2_1 : S2.BroadcastsInDim S1x2 (![1] : Fin 1 → Fin S1x2.rank)
  bcast_S1x2_S131072x2_0_1 : S1x2.BroadcastsInDim S131072x2 (![0, 1] : Fin 2 → Fin S131072x2.rank)
  bcast_S_S131072x2 : S_.BroadcastsInDim S131072x2 (![] : Fin 0 → Fin S131072x2.rank)
  slices_S131072x2_S131072x1_0_0 : S131072x2.Slices ![0, 0] S131072x1
  bcast_S131072x1_S131072x100_0_1 : S131072x1.BroadcastsInDim S131072x100 (![0, 1] : Fin 2 → Fin S131072x100.rank)
  slices_S131072x2_S131072x1_0_1 : S131072x2.Slices ![0, 1] S131072x1
  dot_S131072x310_S310x10_S131072x10_1_0_0_1_n_n_wf : DotDims.WF S131072x310 S310x10 S131072x10 [1] [0] [0] [1] [] []
  dot_S131072x10_S10x128_S131072x128_1_0_0_1_n_n_wf : DotDims.WF S131072x10 S10x128 S131072x128 [1] [0] [0] [1] [] []
  dot_S131072x128_S128x2_S131072x2_1_0_0_1_n_n_wf : DotDims.WF S131072x128 S128x2 S131072x2 [1] [0] [0] [1] [] []

variable [Facts₀]

def dot_S131072x310_S310x10_S131072x10_1_0_0_1_n_n : DotDims S131072x310 S310x10 S131072x10 where
  lhsContracting := [1]
  rhsContracting := [0]
  lhsNonContracting := [0]
  rhsNonContracting := [1]
  lhsBatch := []
  rhsBatch := []
  wf := dot_S131072x310_S310x10_S131072x10_1_0_0_1_n_n_wf
def dot_S131072x10_S10x128_S131072x128_1_0_0_1_n_n : DotDims S131072x10 S10x128 S131072x128 where
  lhsContracting := [1]
  rhsContracting := [0]
  lhsNonContracting := [0]
  rhsNonContracting := [1]
  lhsBatch := []
  rhsBatch := []
  wf := dot_S131072x10_S10x128_S131072x128_1_0_0_1_n_n_wf
def dot_S131072x128_S128x2_S131072x2_1_0_0_1_n_n : DotDims S131072x128 S128x2 S131072x2 where
  lhsContracting := [1]
  rhsContracting := [0]
  lhsNonContracting := [0]
  rhsNonContracting := [1]
  lhsBatch := []
  rhsBatch := []
  wf := dot_S131072x128_S128x2_S131072x2_1_0_0_1_n_n_wf

class Facts : Prop extends Facts₀ where

variable [Facts]
-- ==== Proof.LibDotRead.lean ====
/- A matrix product's contraction sum re-indexed by the contracted coordinate: for the product of an m x k by a
   k x n matrix, and for the product of the transpose of a k x m matrix by a k x n matrix. -/
import Idealize.ShloMosaic.Lib.ValueIdx
import Idealize.ShloMosaic.PureOps.Ideal.Laws

noncomputable section

open scoped BigOperators

namespace Cert.DotRead

open Idealize.ShloMosaic Idealize.ShloMosaic.ValueIdx

/-- Rows by columns: the contraction at (a, b) runs over A (a, c) * B (c, b). -/
theorem sum_contr_plain {m k n : Nat}
    (w : DotDims.WF ⟨2, ![m, k]⟩ ⟨2, ![k, n]⟩ ⟨2, ![m, n]⟩ [1] [0] [0] [1] [] [])
    (A : (⟨2, ![m, k]⟩ : Shape).Idx → EReal) (B : (⟨2, ![k, n]⟩ : Shape).Idx → EReal) (a : Fin m) (b : Fin n) :
    ∑ q : (⟨[1], [0], [0], [1], [], [], w⟩ : DotDims ⟨2, ![m, k]⟩ ⟨2, ![k, n]⟩ ⟨2, ![m, n]⟩).contr.Idx,
        A ((⟨[1], [0], [0], [1], [], [], w⟩ : DotDims ⟨2, ![m, k]⟩ ⟨2, ![k, n]⟩ ⟨2, ![m, n]⟩).lhsIdx (ix2 a b) q)
          * B ((⟨[1], [0], [0], [1], [], [], w⟩ : DotDims ⟨2, ![m, k]⟩ ⟨2, ![k, n]⟩ ⟨2, ![m, n]⟩).rhsIdx (ix2 a b) q)
      = ∑ c : Fin k, A (ix2 a c) * B (ix2 c b) := by
  rw [← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- The left operand transposed: the contraction at (a, b) runs over A (c, a) * B (c, b). -/
theorem sum_contr_lhsT {m k n : Nat}
    (w : DotDims.WF ⟨2, ![k, m]⟩ ⟨2, ![k, n]⟩ ⟨2, ![m, n]⟩ [0] [0] [1] [1] [] [])
    (A : (⟨2, ![k, m]⟩ : Shape).Idx → EReal) (B : (⟨2, ![k, n]⟩ : Shape).Idx → EReal) (a : Fin m) (b : Fin n) :
    ∑ q : (⟨[0], [0], [1], [1], [], [], w⟩ : DotDims ⟨2, ![k, m]⟩ ⟨2, ![k, n]⟩ ⟨2, ![m, n]⟩).contr.Idx,
        A ((⟨[0], [0], [1], [1], [], [], w⟩ : DotDims ⟨2, ![k, m]⟩ ⟨2, ![k, n]⟩ ⟨2, ![m, n]⟩).lhsIdx (ix2 a b) q)
          * B ((⟨[0], [0], [1], [1], [], [], w⟩ : DotDims ⟨2, ![k, m]⟩ ⟨2, ![k, n]⟩ ⟨2, ![m, n]⟩).rhsIdx (ix2 a b) q)
      = ∑ c : Fin k, A (ix2 c a) * B (ix2 c b) := by
  rw [← Equiv.sum_comp (contrEquiv1 (⟨[0], [0], [1], [1], [], [], w⟩ : DotDims ⟨2, ![k, m]⟩ ⟨2, ![k, n]⟩ ⟨2, ![m, n]⟩) k rfl rfl).symm]
  refine Finset.sum_congr rfl fun c _ => ?_
  have c2 := contrEquiv1_symm_val (⟨[0], [0], [1], [1], [], [], w⟩ : DotDims ⟨2, ![k, m]⟩ ⟨2, ![k, n]⟩ ⟨2, ![m, n]⟩) k rfl rfl c
  have l2 : (⟨[0], [0], [1], [1], [], [], w⟩ : DotDims ⟨2, ![k, m]⟩ ⟨2, ![k, n]⟩ ⟨2, ![m, n]⟩).lhsIdx (ix2 a b)
      ((contrEquiv1 _ k rfl rfl).symm c) = ix2 c a := by
    funext ax; apply Fin.ext
    match ax with
    | ⟨0, _⟩ => simp [DotDims.lhsIdx]; exact c2
    | ⟨1, _⟩ => simp [DotDims.lhsIdx]; rfl
  have r2 : (⟨[0], [0], [1], [1], [], [], w⟩ : DotDims ⟨2, ![k, m]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.DotRead

end
-- ==== Proof.LibMatProd.lean ====
/- The textbook product of an m x k by a k x n matrix over the extended reals, (A B)(a, b) = Σ_c A(a, c) · B(c, b), and
   the two operations that compute it exactly there: the host's dot_general over a rows-by-columns dimension record,
   and a matmul with that record into a zero accumulator. Also: a row block of the product is the product of the
   row block. -/
import Idealize.ShloMosaic.Lib.ValueIdx
import Idealize.ShloMosaic.PureOps.Ideal.Laws
import proofs.«112590_j78881369358886_1_alg».proof.Proof.LibDotRead

noncomputable section

open scoped BigOperators

namespace Cert.MatProd

open Idealize.ShloMosaic Idealize.ShloMosaic.ValueIdx

/-- The matrix product, entry by entry. -/
def matProd {m k n : Nat} (A : (⟨2, ![m, k]⟩ : Shape).Idx → EReal) (B : (⟨2, ![k, n]⟩ : Shape).Idx → EReal) :
    (⟨2, ![m, n]⟩ : Shape).Idx → EReal :=
  fun i => ∑ c : Fin k, A (ix2 (i 0) c) * B (ix2 c (i 1))

theorem matProd_ix2 {m k n : Nat} (A : (⟨2, ![m, k]⟩ : Shape).Idx → EReal) (B : (⟨2, ![k, n]⟩ : Shape).Idx → EReal)
    (a : Fin m) (b : Fin n) : matProd A B (ix2 a b) = ∑ c : Fin k, A (ix2 a c) * B (ix2 c b) := rfl

/-- The host's dot_general over a rows-by-columns record is the matrix product: its contraction sum, with no
    accumulator, re-indexed by the contracted coordinate. -/
theorem hostDot_eq {m k n : Nat}
    (w : DotDims.WF ⟨2, ![m, k]⟩ ⟨2, ![k, n]⟩ ⟨2, ![m, n]⟩ [1] [0] [0] [1] [] [])
    (prec : Option ContractPrecision)
    (A : FVec Ideal ⟨2, ![m, k]⟩ .f32) (B : FVec Ideal ⟨2, ![k, n]⟩ .f32) :
    Host.dotGeneral (⟨[1], [0], [0], [1], [], [], w⟩ : DotDims ⟨2, ![m, k]⟩ ⟨2, ![k, n]⟩ ⟨2, ![m, n]⟩) prec A B = matProd A B := by
  funext i
  obtain ⟨a, b, rfl⟩ : ∃ (a : Fin m) (b : Fin n), i = ix2 a b := ⟨i 0, i 1, eq_ix2 i⟩
  refine (Ideal.dotGeneral_apply _ prec _ A B (ix2 a b)).trans ?_
  exact Cert.DotRead.sum_contr_plain w A B a b

/-- A matmul over a rows-by-columns record into the zero accumulator is the matrix product: zero plus the contraction
    sum. -/
theorem matmulZero_eq {m k n : Nat}
    (w : DotDims.WF ⟨2, ![m, k]⟩ ⟨2, ![k, n]⟩ ⟨2, ![m, n]⟩ [1] [0] [0] [1] [] [])
    (prec : Option ContractPrecision)
    (A : FVec Ideal ⟨2, ![m, k]⟩ .f32) (B : FVec Ideal ⟨2, ![k, n]⟩ .f32) :
    matmul (⟨[1], [0], [0], [1], [], [], w⟩ : DotDims ⟨2, ![m, k]⟩ ⟨2, ![k, n]⟩ ⟨2, ![m, n]⟩) prec A B
      (constant (F := Ideal) ⟨2, ![m, n]⟩ .f32 0x00000000#32) = matProd A B := by
  funext i
  obtain ⟨a, b, rfl⟩ : ∃ (a : Fin m) (b : Fin n), i = ix2 a b := ⟨i 0, i 1, eq_ix2 i⟩
  refine (Ideal.matmul_constant_zero_apply _ prec A B (ix2 a b)).trans ?_
  exact Cert.DotRead.sum_contr_plain w A B a b

end Cert.MatProd

end
-- ==== Proof.Mlp.lean ====
/- What both programs compute, as functions of the argument arrays over the extended reals.

   A dense layer sends a matrix A of m rows to leaky (A W + b): the matrix product, the bias b added to every row, and
   the leaky rectifier entry by entry, leaky v = v where v ≥ 0 and s · v elsewhere, s the binary32 number nearest 0.01.
   Three such layers (310 → 10 → 128 → 2) turn each row of x into two coefficients c₀, c₁, and the result at (r, d) is
   c₀(r) · t(r, d) + c₁(r) · t(r, d)², t the second argument.

   Every entry of row r of the result depends on row r of x and of t only (`curve_row`): that is what lets a block of
   rows be computed from the same block of rows of the inputs. -/
import Idealize.ShloMosaic.Lib.ValueIdx
import Idealize.ShloMosaic.PureOps.Ideal
import proofs.«112590_j78881369358886_1_alg».proof.Proof.LibMatProd

noncomputable section

open scoped BigOperators

namespace Cert.Mlp

open Idealize.ShloMosaic Idealize.ShloMosaic.ValueIdx Cert.MatProd

/-- The leaky rectifier on one extended real: v where v ≥ 0 (an ordered comparison with zero), else s · v, with s
    the binary32 word 0x3C23D70A. -/
def leaky (v : EReal) : EReal :=
  Scalar.select (Ideal.cmp .oge v (Ideal.ofBits .f32 0x00000000#32)) v (Ideal.ofBits .f32 0x3C23D70A#32 * v)

/-- One dense layer on a matrix of m rows: entry (a, j) is leaky (Σ_c A(a, c) · W(c, j) + b(j)). -/
def dense {m k n : ℕ} (A : (⟨2, ![m, k]⟩ : Shape).Idx → EReal) (W : (⟨2, ![k, n]⟩ : Shape).Idx → EReal)
    (b : (⟨1, ![n]⟩ : Shape).Idx → EReal) : (⟨2, ![m, n]⟩ : Shape).Idx → EReal :=
  fun i => leaky (matProd A W i + b (ix1 (i 1)))

theorem dense_ix2 {m k n : ℕ} (A : (⟨2, ![m, k]⟩ : Shape).Idx → EReal) (W : (⟨2, ![k, n]⟩ : Shape).Idx → EReal)
    (b : (⟨1, ![n]⟩ : Shape).Idx → EReal) (a : Fin m) (j : Fin n) :
    dense A W b (ix2 a j) = leaky ((∑ c : Fin k, A (ix2 a c) * W (ix2 c j)) + b (ix1 j)) := rfl

/-- The polynomial step: entry (a, d) is c(a, 0) · t(a, d) + c(a, 1) · (t(a, d) · t(a, d)). -/
def poly {m d : ℕ} (c : (⟨2, ![m, 2]⟩ : Shape).Idx → EReal) (t : (⟨2, ![m, d]⟩ : Shape).Idx → EReal) :
    (⟨2, ![m, d]⟩ : Shape).Idx → EReal :=
  fun i => c (ix2 (i 0) (0 : Fin 2)) * t i + c (ix2 (i 0) (1 : Fin 2)) * (t i * t i)

theorem poly_ix2 {m d : ℕ} (c : (⟨2, ![m, 2]⟩ : Shape).Idx → EReal) (t : (⟨2, ![m, d]⟩ : Shape).Idx → EReal)
    (a : Fin m) (e : Fin d) :
    poly c t (ix2 a e) = c (ix2 a (0 : Fin 2)) * t (ix2 a e) + c (ix2 a (1 : Fin 2)) * (t (ix2 a e) * t (ix2 a e)) := rfl

/-- The coefficients: three dense layers on the rows of x. -/
def coeffs {m : ℕ} (x : (⟨2, ![m, 310]⟩ : Shape).Idx → EReal)
    (W1 : (⟨2, ![310, 10]⟩ : Shape).Idx → EReal) (b1 : (⟨1, ![10]⟩ : Shape).Idx → EReal)
    (W2 : (⟨2, ![10, 128]⟩ : Shape).Idx → EReal) (b2 : (⟨1, ![128]⟩ : Shape).Idx → EReal)
    (W3 : (⟨2, ![128, 2]⟩ : Shape).Idx → EReal) (b3 : (⟨1, ![2]⟩ : Shape).Idx → EReal) :
    (⟨2, ![m, 2]⟩ : Shape).Idx → EReal :=
  dense (dense (dense x W1 b1) W2 b2) W3 b3

/-- The whole result on m rows. -/
def curve {m : ℕ} (x : (⟨2, ![m, 310]⟩ : Shape).Idx → EReal) (t : (⟨2, ![m, 100]⟩ : Shape).Idx → EReal)
    (W1 : (⟨2, ![310, 10]⟩ : Shape).Idx → EReal) (b1 : (⟨1, ![10]⟩ : Shape).Idx → EReal)
    (W2 : (⟨2, ![10, 128]⟩ : Shape).Idx → EReal) (b2 : (⟨1, ![128]⟩ : Shape).Idx → EReal)
    (W3 : (⟨2, ![128, 2]⟩ : Shape).Idx → EReal) (b3 : (⟨1, ![2]⟩ : Shape).Idx → EReal) :
    (⟨2, ![m, 100]⟩ : Shape).Idx → EReal :=
  poly (coeffs x W1 b1 W2 b2 W3 b3) t

/-- A dense layer works row by row: if row a of A is row a' of A', so is the layer's output. -/
theorem dense_row {m m' k n : ℕ} (A : (⟨2, ![m, k]⟩ : Shape).Idx → EReal) (A' : (⟨2, ![m', k]⟩ : Shape).Idx → EReal)
    (W : (⟨2, ![k, n]⟩ : Shape).Idx → EReal) (b : (⟨1, ![n]⟩ : Shape).Idx → EReal) (a : Fin m) (a' : Fin m')
    (h : ∀ c : Fin k, A (ix2 a c) = A' (ix2 a' c)) (j : Fin n) :
    dense A W b (ix2 a j) = dense A' W b (ix2 a' j) := by
  rw [dense_ix2, dense_ix2]
  exact congrArg (fun s => leaky (s + b (ix1 j))) (Finset.sum_congr rfl fun c _ => by rw [h c])

/-- So does the whole result: row a of the result from (x, t) is row a' of the result from (x', t') whenever those
    rows of the inputs agree. -/
theorem curve_row {m m' : ℕ} (x : (⟨2, ![m, 310]⟩ : Shape).Idx → EReal) (x' : (⟨2, ![m', 310]⟩ : Shape).Idx → EReal)
    (t : (⟨2, ![m, 100]⟩ : Shape).Idx → EReal) (t' : (⟨2, ![m', 100]⟩ : Shape).Idx → EReal)
    (W1 : (⟨2, ![310, 10]⟩ : Shape).Idx → EReal) (b1 : (⟨1, ![10]⟩ : Shape).Idx → EReal)
    (W2 : (⟨2, ![10, 128]⟩ : Shape).Idx → EReal) (b2 : (⟨1, ![128]⟩ : Shape).Idx → EReal)
    (W3 : (⟨2, ![128, 2]⟩ : Shape).Idx → EReal) (b3 : (⟨1, ![2]⟩ : Shape).Idx → EReal)
    (a : Fin m) (a' : Fin m') (hx : ∀ c : Fin 310, x (ix2 a c) = x' (ix2 a' c))
    (ht : ∀ e : Fin 100, t (ix2 a e) = t' (ix2 a' e)) (e : Fin 100) :
    curve x t W1 b1 W2 b2 W3 b3 (ix2 a e) = curve x' t' W1 b1 W2 b2 W3 b3 (ix2 a' e) := by
  have hc : ∀ j : Fin 2, coeffs x W1 b1 W2 b2 W3 b3 (ix2 a j) = coeffs x' W1 b1 W2 b2 W3 b3 (ix2 a' j) :=
    dense_row _ _ W3 b3 a a' (dense_row _ _ W2 b2 a a' (dense_row x x' W1 b1 a a' hx))
  unfold curve
  rw [poly_ix2, poly_ix2, hc 0, hc 1, ht e]

/-- The same, at two indices given by their coordinates: the result at j from (x, t) is the result at i from (x', t')
    when row j₀ of (x, t) is row i₀ of (x', t') and the column coordinates are equal. -/
theorem curve_at_rows {m m' : ℕ} (x : (⟨2, ![m, 310]⟩ : Shape).Idx → EReal) (x' : (⟨2, ![m', 310]⟩ : Shape).Idx → EReal)
    (t : (⟨2, ![m, 100]⟩ : Shape).Idx → EReal) (t' : (⟨2, ![m', 100]⟩ : Shape).Idx → EReal)
    (W1 : (⟨2, ![310, 10]⟩ : Shape).Idx → EReal) (b1 : (⟨1, ![10]⟩ : Shape).Idx → EReal)
    (W2 : (⟨2, ![10, 128]⟩ : Shape).Idx → EReal) (b2 : (⟨1, ![128]⟩ : Shape).Idx → EReal)
    (W3 : (⟨2, ![128, 2]⟩ : Shape).Idx → EReal) (b3 : (⟨1, ![2]⟩ : Shape).Idx → EReal)
    (j : (⟨2, ![m, 100]⟩ : Shape).Idx) (i : (⟨2, ![m', 100]⟩ : Shape).Idx)
    (hx : ∀ c : Fin 310, x (ix2 (j 0) c) = x' (ix2 (i 0) c))
    (ht : ∀ e : Fin 100, t (ix2 (j 0) e) = t' (ix2 (i 0) e))
    (h1 : (j 1).val = (i 1).val) :
    curve x t W1 b1 W2 b2 W3 b3 j = curve x' t' W1 b1 W2 b2 W3 b3 i := by
  obtain ⟨a, e, rfl⟩ : ∃ (a : Fin m) (e : Fin 100), j = ix2 a e := ⟨j 0, j 1, eq_ix2 j⟩
  obtain ⟨a', e', rfl⟩ : ∃ (a' : Fin m') (e' : Fin 100), i = ix2 a' e' := ⟨i 0, i 1, eq_ix2 i⟩
  have he : e = e' := Fin.ext h1
  subst he
  exact curve_row x x' t t' W1 b1 W2 b2 W3 b3 a a' hx ht e

end Cert.Mlp

end
-- ==== Proof.LibBiasRow.lean ====
/- A vector of n entries laid along each of the m rows of a matrix, read at an entry: entry (a, j) of the matrix is
   entry j of the vector. Three spellings of the same layout: the vector cast to one row; that row broadcast down
   the rows (a kernel's `vector.shape_cast` then `vector.broadcast`); and the host's two steps, the vector broadcast
   along axis 1 into a one-row matrix, then that matrix broadcast along both axes. This is the bias of a dense layer
   added to every row of a product. -/
import Idealize.ShloMosaic.Lib.ValueIdx
import Idealize.ShloMosaic.Lib.Pipeline.Value
import Idealize.ShloMosaic.Lib.KernelVsHost

noncomputable section

namespace Cert.BiasRow

open Idealize.ShloMosaic Idealize.ShloMosaic.ValueIdx

variable {α : Type}

/-- The vector cast to a one-row matrix reads, at (0, j), the vector at j. -/
theorem oneRow_cast_apply {n : ℕ} (b : (⟨1, ![n]⟩ : Shape).Idx → α)
    (h1 : (⟨1, ![n]⟩ : Shape).ShapeCasts ⟨2, ![1, n]⟩) (j : Fin n) :
    shapeCast ⟨2, ![1, n]⟩ b h1 (ix2 (0 : Fin 1) j) = b (ix1 j) :=
  shapeCast_apply b h1 (ix2 (0 : Fin 1) j) (ix1 j) (by
    rw [Shape.rowMajor_val_two, Shape.rowMajor_val_one]
    show j.val = 0 * n + j.val
    omega)

/-- The kernel's spelling: the one-row cast broadcast down m rows reads, at (a, j), the vector at j. -/
theorem castRows_apply {m n : ℕ} (b : (⟨1, ![n]⟩ : Shape).Idx → α)
    (h1 : (⟨1, ![n]⟩ : Shape).ShapeCasts ⟨2, ![1, n]⟩) (hb : (⟨2, ![1, n]⟩ : Shape).Broadcasts ⟨2, ![m, n]⟩)
    (a : Fin m) (j : Fin n) :
    broadcastTo ⟨2, ![m, n]⟩ (shapeCast ⟨2, ![1, n]⟩ b h1) hb (ix2 a j) = b (ix1 j) := by
  refine (broadcastTo_apply (shapeCast ⟨2, ![1, n]⟩ b h1) hb (ix2 a j) (ix2 (0 : Fin 1) j) ?_).trans
    (oneRow_cast_apply b h1 j)
  intro ax
  match ax with
  | ⟨0, _⟩ => rfl
  | ⟨1, _⟩ =>
    show j.val = if n = 1 then 0 else j.val
    split
    · have := j.isLt; omega
    · rfl

/-- The host's spelling: the vector broadcast along axis 1 into one row, that row broadcast along both axes into
    m rows, reads, at (a, j), the vector at j. -/
theorem inDimRows_apply {m n : ℕ} (b : (⟨1, ![n]⟩ : Shape).Idx → α)
    (hd1 : (⟨1, ![n]⟩ : Shape).BroadcastsInDim ⟨2, ![1, n]⟩ ![1])
    (hd2 : (⟨2, ![1, n]⟩ : Shape).BroadcastsInDim ⟨2, ![m, n]⟩ ![0, 1]) (a : Fin m) (j : Fin n) :
    broadcastInDim ⟨2, ![m, n]⟩ ![0, 1] hd2 (broadcastInDim ⟨2, ![1, n]⟩ ![1] hd1 b) (ix2 a j) = b (ix1 j) := by
  refine (broadcastInDim_oneRow_apply hd2 _ a j).trans ?_
  refine broadcastInDim_apply ![1] hd1 b (ix2 (0 : Fin 1) j) (ix1 j) ?_
  intro ax
  match ax with
  | ⟨0, _⟩ =>
    show j.val = if n = 1 then 0 else j.val
    split
    · have := j.isLt; omega
    · rfl

end Cert.BiasRow

end
-- ==== Proof.Layers.lean ====
/- One dense layer as each program spells it, read as the specification's `dense`.

   The kernel multiplies into a zero accumulator, adds the bias as a one-row cast broadcast down the rows, and selects
   between v and s · v on the comparison of v with a splat zero. The host multiplies with no accumulator, adds the
   bias broadcast in two steps, and selects the same way against broadcast constants. On the extended reals both
   products are the textbook sum, both bias layouts put b(j) at (a, j), and both constants are the same two numbers, so
   entry by entry both are leaky (Σ_c A(a, c) · W(c, j) + b(j)). No law of arithmetic is used beyond reading the sums. -/
import Idealize.ShloMosaic.Lib.ValueIdx
import Idealize.ShloMosaic.PureOps.Ideal.Laws
import proofs.«112590_j78881369358886_1_alg».proof.Proof.Mlp
import proofs.«112590_j78881369358886_1_alg».proof.Proof.LibBiasRow

noncomputable section

namespace Cert.Mlp

open Idealize.ShloMosaic Idealize.ShloMosaic.ValueIdx Cert.MatProd

/-- The kernel's select between v and s · v, on one value, is the rectifier. -/
theorem leaky_splat (v : EReal) :
    Scalar.select (FloatOps.cmpf (F := Ideal) (φ := .f32) .oge v (Scalar.ofBits (F := Ideal) .f32 0x00000000#32)) v
      (FloatOps.mulf (F := Ideal) (φ := .f32) (Scalar.ofBits (F := Ideal) .f32 0x3C23D70A#32) v) = leaky v := rfl

/-- The kernel's layer: a matmul over a rows-by-columns record into the zero accumulator, the bias cast to one row
    and broadcast down the rows, the rectifier by compare, multiply and select. -/
theorem kernelLayer_eq {m k n : ℕ} (D : DotDims ⟨2, ![m, k]⟩ ⟨2, ![k, n]⟩ ⟨2, ![m, n]⟩)
    (w : DotDims.WF ⟨2, ![m, k]⟩ ⟨2, ![k, n]⟩ ⟨2, ![m, n]⟩ [1] [0] [0] [1] [] [])
    (hD : D = ⟨[1], [0], [0], [1], [], [], w⟩)
    (A : FVec Ideal ⟨2, ![m, k]⟩ .f32) (W : FVec Ideal ⟨2, ![k, n]⟩ .f32) (b : FVec Ideal ⟨1, ![n]⟩ .f32)
    (h1 : (⟨1, ![n]⟩ : Shape).ShapeCasts ⟨2, ![1, n]⟩) (hb : (⟨2, ![1, n]⟩ : Shape).Broadcasts ⟨2, ![m, n]⟩) :
    select
        (cmpf .oge
          (addf (matmul D none A W (constant ⟨2, ![m, n]⟩ .f32 0x00000000#32))
            (broadcastTo ⟨2, ![m, n]⟩ (shapeCast ⟨2, ![1, n]⟩ b h1) hb))
          (broadcast ⟨2, ![m, n]⟩ (Scalar.ofBits (F := Ideal) .f32 0x00000000#32)))
        (addf (matmul D none A W (constant ⟨2, ![m, n]⟩ .f32 0x00000000#32))
          (broadcastTo ⟨2, ![m, n]⟩ (shapeCast ⟨2, ![1, n]⟩ b h1) hb))
        (mulf (broadcast ⟨2, ![m, n]⟩ (Scalar.ofBits (F := Ideal) .f32 0x3C23D70A#32))
          (addf (matmul D none A W (constant ⟨2, ![m, n]⟩ .f32 0x00000000#32))
            (broadcastTo ⟨2, ![m, n]⟩ (shapeCast ⟨2, ![1, n]⟩ b h1) hb)))
      = dense A W b := by
  subst hD
  funext i
  obtain ⟨a, j, rfl⟩ : ∃ (a : Fin m) (j : Fin n), i = ix2 a j := ⟨i 0, i 1, eq_ix2 i⟩
  have hv : addf (matmul (⟨[1], [0], [0], [1], [], [], w⟩ : DotDims ⟨2, ![m, k]⟩ ⟨2, ![k, n]⟩ ⟨2, ![m, n]⟩) none A W
        (constant ⟨2, ![m, n]⟩ .f32 0x00000000#32))
      (broadcastTo ⟨2, ![m, n]⟩ (shapeCast ⟨2, ![1, n]⟩ b h1) hb) (ix2 a j)
      = matProd A W (ix2 a j) + b (ix1 j) :=
    congrArg₂ (· + ·) (congrFun (matmulZero_eq w none A W) (ix2 a j)) (Cert.BiasRow.castRows_apply b h1 hb a j)
  exact (leaky_splat _).trans (congrArg leaky hv)

/-- The host's select between v and s · v, on one value, is the rectifier. -/
theorem leaky_const (v : EReal) :
    Scalar.select (FloatOps.cmpf (F := Ideal) (φ := .f32) .oge v (FloatOps.ofBits (F := Ideal) .f32 0x00000000#32)) v
      (FloatOps.mulf (F := Ideal) (φ := .f32) (FloatOps.ofBits (F := Ideal) .f32 0x3C23D70A#32) v) = leaky v := rfl

/-- The host's layer: a dot_general over a rows-by-columns record, the bias broadcast along axis 1 into one row and
    then along both axes, the rectifier by compare, multiply and select against broadcast scalar constants. -/
theorem hostLayer_eq {m k n : ℕ} (D : DotDims ⟨2, ![m, k]⟩ ⟨2, ![k, n]⟩ ⟨2, ![m, n]⟩)
    (w : DotDims.WF ⟨2, ![m, k]⟩ ⟨2, ![k, n]⟩ ⟨2, ![m, n]⟩ [1] [0] [0] [1] [] [])
    (hD : D = ⟨[1], [0], [0], [1], [], [], w⟩)
    (A : FVec Ideal ⟨2, ![m, k]⟩ .f32) (W : FVec Ideal ⟨2, ![k, n]⟩ .f32) (b : FVec Ideal ⟨1, ![n]⟩ .f32)
    (hd1 : (⟨1, ![n]⟩ : Shape).BroadcastsInDim ⟨2, ![1, n]⟩ ![1])
    (hd2 : (⟨2, ![1, n]⟩ : Shape).BroadcastsInDim ⟨2, ![m, n]⟩ ![0, 1])
    (hd0 : (⟨0, ![]⟩ : Shape).BroadcastsInDim ⟨2, ![m, n]⟩ ![]) :
    select
        (cmpf .oge
          (addf (Host.dotGeneral D none A W)
            (broadcastInDim ⟨2, ![m, n]⟩ ![0, 1] hd2 (broadcastInDim ⟨2, ![1, n]⟩ ![1] hd1 b)))
          (broadcastInDim ⟨2, ![m, n]⟩ ![] hd0 (constant (F := Ideal) ⟨0, ![]⟩ .f32 0x00000000#32)))
        (addf (Host.dotGeneral D none A W)
          (broadcastInDim ⟨2, ![m, n]⟩ ![0, 1] hd2 (broadcastInDim ⟨2, ![1, n]⟩ ![1] hd1 b)))
        (mulf (broadcastInDim ⟨2, ![m, n]⟩ ![] hd0 (constant (F := Ideal) ⟨0, ![]⟩ .f32 0x3C23D70A#32))
          (addf (Host.dotGeneral D none A W)
            (broadcastInDim ⟨2, ![m, n]⟩ ![0, 1] hd2 (broadcastInDim ⟨2, ![1, n]⟩ ![1] hd1 b))))
      = dense A W b := by
  subst hD
  funext i
  obtain ⟨a, j, rfl⟩ : ∃ (a : Fin m) (j : Fin n), i = ix2 a j := ⟨i 0, i 1, eq_ix2 i⟩
  have hv : addf (Host.dotGeneral (⟨[1], [0], [0], [1], [], [], w⟩ : DotDims ⟨2, ![m, k]⟩ ⟨2, ![k, n]⟩ ⟨2, ![m, n]⟩) none A W)
      (broadcastInDim ⟨2, ![m, n]⟩ ![0, 1] hd2 (broadcastInDim ⟨2, ![1, n]⟩ ![1] hd1 b)) (ix2 a j)
      = matProd A W (ix2 a j) + b (ix1 j) :=
    congrArg₂ (· + ·) (congrFun (hostDot_eq w none A W) (ix2 a j)) (Cert.BiasRow.inDimRows_apply b hd1 hd2 a j)
  exact (leaky_const _).trans (congrArg leaky hv)

end Cert.Mlp

end
-- ==== Proof.KernelBlock.lean ====
/- What the idealized kernel's body leaves in its output block, as the specification's `curve` of the body's input
   blocks: the three matmul-bias-rectifier stretches of the body are the three dense layers (the coefficients), and
   the rest of the body multiplies the two coefficient columns, each broadcast along the row, into the block of t and
   its square and adds. -/
import proofs.«112590_j78881369358886_1_alg».proof.Proof.Gen.KernelIdeal.Value
import proofs.«112590_j78881369358886_1_alg».proof.Proof.Layers

noncomputable section

namespace Cert.KernelIdeal.Block

open Cert.KernelIdeal Cert.KernelIdeal.Gen Idealize.ShloMosaic Idealize.ShloMosaic.TcCoe
open Idealize.ShloMosaic.ValueIdx Cert.Mlp

theorem zeros2 : (![0, 0] : Fin 2 → Nat) = fun _ => 0 := funext fun a => by fin_cases a <;> rfl
theorem zeros1 : (![0] : Fin 1 → Nat) = fun _ => 0 := funext fun a => by fin_cases a; rfl

/-- The body's coefficient value (the 4096 x 2 array both slices are taken from) is three dense layers on the block of
    x: 310 → 10 → 128 → 2, each a product into zero, a bias row, and the rectifier. -/
theorem pay2_coeffs (P0 : Vec Ideal S4096x310 .f32) (P1 : Vec Ideal S310x10 .f32) (P2 : Vec Ideal S10 .f32)
    (P3 : Vec Ideal S10x128 .f32) (P4 : Vec Ideal S128 .f32) (P5 : Vec Ideal S128x2 .f32) (P6 : Vec Ideal S2 .f32) :
    k0_pay2 (F := Ideal) P0 P1 P2 P3 P4 P5 P6 = coeffs P0 P1 P2 P3 P4 P5 P6 := by
  unfold k0_pay2 coeffs
  dsimp only
  rw [kernelLayer_eq dot_S4096x310_S310x10_S4096x10_1_0_0_1_n_n dot_S4096x310_S310x10_S4096x10_1_0_0_1_n_n_wf rfl
      P0 P1 P2 shapeCasts_S10_S1x10 broadcasts_S1x10_S4096x10,
    kernelLayer_eq dot_S4096x10_S10x128_S4096x128_1_0_0_1_n_n dot_S4096x10_S10x128_S4096x128_1_0_0_1_n_n_wf rfl
      (dense P0 P1 P2) P3 P4 shapeCasts_S128_S1x128 broadcasts_S1x128_S4096x128,
    kernelLayer_eq dot_S4096x128_S128x2_S4096x2_1_0_0_1_n_n dot_S4096x128_S128x2_S4096x2_1_0_0_1_n_n_wf rfl
      (dense (dense P0 P1 P2) P3 P4) P5 P6 shapeCasts_S2_S1x2 broadcasts_S1x2_S4096x2]

/-- The block the body stores, index by index: coefficient 0 of the row times t, plus coefficient 1 of the row times
    t squared. -/
theorem stored_curve (P0 : Vec Ideal S4096x310 .f32) (P1 : Vec Ideal S310x10 .f32) (P2 : Vec Ideal S10 .f32)
    (P3 : Vec Ideal S10x128 .f32) (P4 : Vec Ideal S128 .f32) (P5 : Vec Ideal S128x2 .f32) (P6 : Vec Ideal S2 .f32)
    (P7 : Vec Ideal S4096x100 .f32) (y : S4096x100.Idx) :
    Value.E8 (F := Ideal) P0 P1 P2 P3 P4 P5 P6 P7 y = curve P0 P7 P1 P2 P3 P4 P5 P6 y := by
  obtain ⟨p, e, rfl⟩ : ∃ (p : Fin 4096) (e : Fin 100), y = ix2 p e := ⟨y 0, y 1, eq_ix2 y⟩
  have h0 : Value.ix8_0 (ix2 p e) = ix2 p (0 : Fin 2) :=
    funext fun a => Fin.ext (by match a with | ⟨0, _⟩ => rfl | ⟨1, _⟩ => rfl)
  have h2 : Value.ix8_2 (ix2 p e) = ix2 p (1 : Fin 2) :=
    funext fun a => Fin.ext (by match a with | ⟨0, _⟩ => rfl | ⟨1, _⟩ => rfl)
  have h1 : Value.ix8_1 (ix2 p e) = ix2 p e :=
    funext fun a => Fin.ext (by match a with | ⟨0, _⟩ => rfl | ⟨1, _⟩ => rfl)
  have h3 : Value.ix8_3 (ix2 p e) = ix2 p e :=
    funext fun a => Fin.ext (by match a with | ⟨0, _⟩ => rfl | ⟨1, _⟩ => rfl)
  have h4 : Value.ix8_4 (ix2 p e) = ix2 p e :=
    funext fun a => Fin.ext (by match a with | ⟨0, _⟩ => rfl | ⟨1, _⟩ => rfl)
  show k0_pay2 (F := Ideal) P0 P1 P2 P3 P4 P5 P6 (Value.ix8_0 (ix2 p e)) * P7 (Value.ix8_1 (ix2 p e))
      + k0_pay2 (F := Ideal) P0 P1 P2 P3 P4 P5 P6 (Value.ix8_2 (ix2 p e)) * (P7 (Value.ix8_3 (ix2 p e)) * P7 (Value.ix8_4 (ix2 p e)))
    = _
  rw [h0, h1, h2, h3, h4, pay2_coeffs]
  rfl

/-- What the body leaves in the output block, from the blocks it reads: `curve` of the block of x and the block of t,
    with the six weight arrays (each read whole). The body's one store covers the block, and every load is of a whole
    buffer. -/
theorem out_curve (x0 : Vec Ideal S4096x310 .f32) (x1 : Vec Ideal S4096x100 .f32) (x2 : Vec Ideal S310x10 .f32)
    (x3 : Vec Ideal S10 .f32) (x4 : Vec Ideal S10x128 .f32) (x5 : Vec Ideal S128 .f32) (x6 : Vec Ideal S128x2 .f32)
    (x7 : Vec Ideal S2 .f32) :
    out0_8 (F := Ideal) x0 x1 x2 x3 x4 x5 x6 x7 = curve x0 x1 x2 x3 x4 x5 x6 x7 := by
  funext y
  unfold out0_8
  simp only [View.ld_unit_zero (S := S4096x310) zeros2, View.ld_unit_zero (S := S310x10) zeros2,
    View.ld_unit_zero (S := S10) zeros1, View.ld_unit_zero (S := S10x128) zeros2, View.ld_unit_zero (S := S128) zeros1,
    View.ld_unit_zero (S := S128x2) zeros2, View.ld_unit_zero (S := S2) zeros1,
    View.ld_unit_zero (S := S4096x100) zeros2]
  exact (Value.canon8_eq x0 x2 x3 x4 x5 x6 x7 x1 y).trans (stored_curve x0 x2 x3 x4 x5 x6 x7 x1 y)

end Cert.KernelIdeal.Block

end
-- ==== Proof.KernelWhole.lean ====
/- The idealized kernel's result array after the run, as the specification's `curve` of the argument arrays.

   Grid point t reads rows 4096 t … 4096 t + 4095 of x and of t (all their columns) and the six weight arrays whole, and
   writes back the same rows of the result. Because every entry of a row of `curve` depends on that row of x and t only,
   the block written at point t is that block of rows of `curve` of the whole arrays; the 32 blocks tile the 131072
   rows, so the array ends as `curve` everywhere. -/
import proofs.«112590_j78881369358886_1_alg».proof.Proof.KernelBlock

noncomputable section

namespace Cert.KernelIdeal.Whole

open Cert.KernelIdeal Cert.KernelIdeal.Gen Idealize.ShloMosaic Idealize.ShloMosaic.TcCoe Idealize.SL.Sem
open Idealize.ShloMosaic.ValueIdx Cert.Mlp
open Idealize.ShloMosaic.Pipeline (Dat)

variable (m : (ℓ : Loc nD τ sig) → Buf (Elt Ideal) ℓ) (ρ : Dev nD → PrngReg)

/-- The block index maps over the 32 grid points: the windows of x, of t and of the result are at row block t,
    column block 0; each weight window is at block 0 on every axis. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = 0 ∧ win0_6.index t (1 : Fin 2) = 0
    ∧ win0_7.index t (0 : Fin 1) = 0
    ∧ win0_8.index t (0 : Fin 2) = t.val ∧ win0_8.index t (1 : Fin 2) = 0 :=
  (by decide +kernel : ∀ t : Fin grid0.N, _)

/-! ## The weight windows' blocks are the whole arrays -/

theorem wblk2 (c : Dev nD) (t : Fin cfg0.N) : iblk m c 2 t = V m c main_arg2 := by
  obtain ⟨-, -, -, -, e0, e1, -⟩ := idx_facts t
  funext y
  show V m c main_arg2 (((cfg0.win 2).blk t).view.emb y) = V m c main_arg2 y
  refine congrArg _ (funext fun a => Fin.ext ?_)
  match a with
  | ⟨0, _⟩ => show win0_2.index t (0 : Fin 2) * 310 + 1 * (y 0).val = (y 0).val; omega
  | ⟨1, _⟩ => show win0_2.index t (1 : Fin 2) * 10 + 1 * (y 1).val = (y 1).val; omega

theorem wblk3 (c : Dev nD) (t : Fin cfg0.N) : iblk m c 3 t = V m c main_arg3 := by
  obtain ⟨-, -, -, -, -, -, e0, -⟩ := idx_facts t
  funext y
  show V m c main_arg3 (((cfg0.win 3).blk t).view.emb y) = V m c main_arg3 y
  refine congrArg _ (funext fun a => Fin.ext ?_)
  match a with
  | ⟨0, _⟩ => show win0_3.index t (0 : Fin 1) * 10 + 1 * (y 0).val = (y 0).val; omega

theorem wblk4 (c : Dev nD) (t : Fin cfg0.N) : iblk m c 4 t = V m c main_arg4 := by
  obtain ⟨-, -, -, -, -, -, -, e0, e1, -⟩ := idx_facts t
  funext y
  show V m c main_arg4 (((cfg0.win 4).blk t).view.emb y) = V m c main_arg4 y
  refine congrArg _ (funext fun a => Fin.ext ?_)
  match a with
  | ⟨0, _⟩ => show win0_4.index t (0 : Fin 2) * 10 + 1 * (y 0).val = (y 0).val; omega
  | ⟨1, _⟩ => show win0_4.index t (1 : Fin 2) * 128 + 1 * (y 1).val = (y 1).val; omega

theorem wblk5 (c : Dev nD) (t : Fin cfg0.N) : iblk m c 5 t = V m c main_arg5 := by
  obtain ⟨-, -, -, -, -, -, -, -, -, e0, -⟩ := idx_facts t
  funext y
  show V m c main_arg5 (((cfg0.win 5).blk t).view.emb y) = V m c main_arg5 y
  refine congrArg _ (funext fun a => Fin.ext ?_)
  match a with
  | ⟨0, _⟩ => show win0_5.index t (0 : Fin 1) * 128 + 1 * (y 0).val = (y 0).val; omega

theorem wblk6 (c : Dev nD) (t : Fin cfg0.N) : iblk m c 6 t = V m c main_arg6 := by
  obtain ⟨-, -, -, -, -, -, -, -, -, -, e0, e1, -⟩ := idx_facts t
  funext y
  show V m c main_arg6 (((cfg0.win 6).blk t).view.emb y) = V m c main_arg6 y
  refine congrArg _ (funext fun a => Fin.ext ?_)
  match a with
  | ⟨0, _⟩ => show win0_6.index t (0 : Fin 2) * 128 + 1 * (y 0).val = (y 0).val; omega
  | ⟨1, _⟩ => show win0_6.index t (1 : Fin 2) * 2 + 1 * (y 1).val = (y 1).val; omega

theorem wblk7 (c : Dev nD) (t : Fin cfg0.N) : iblk m c 7 t = V m c main_arg7 := by
  obtain ⟨-, -, -, -, -, -, -, -, -, -, -, -, e0, -⟩ := idx_facts t
  funext y
  show V m c main_arg7 (((cfg0.win 7).blk t).view.emb y) = V m c main_arg7 y
  refine congrArg _ (funext fun a => Fin.ext ?_)
  match a with
  | ⟨0, _⟩ => show win0_7.index t (0 : Fin 1) * 2 + 1 * (y 0).val = (y 0).val; omega

/-! ## The result array -/

/-- `curve` of the eight argument arrays as the region finds them. -/
abbrev result (c : Dev nD) : S131072x100.Idx → EReal :=
  curve (V m c main_arg0) (V m c main_arg1) (V m c main_arg2) (V m c main_arg3) (V m c main_arg4) (V m c main_arg5)
    (V m c main_arg6) (V m c main_arg7)

/-- What point t writes back is block t of `result`: row p of the block comes from row p of the blocks of x and t,
    which are row 4096 t + p of the arrays. -/
theorem flushed_curve (c : Dev nD) (t : Fin cfg0.N) :
    (dats m 0 c).flushed 8 t = ((cfg0.win 8).blk t).view.read (Elt Ideal) (result m c) := by
  rw [Value.flushed8,
    Block.out_curve (iblk m c 0 t) (iblk m c 1 t) (iblk m c 2 t) (iblk m c 3 t) (iblk m c 4 t) (iblk m c 5 t)
      (iblk m c 6 t) (iblk m c 7 t),
    wblk2, wblk3, wblk4, wblk5, wblk6, wblk7]
  obtain ⟨a00, a01, a10, a11, -, -, -, -, -, -, -, -, -, a80, a81⟩ := idx_facts t
  funext j
  show curve (iblk m c 0 t) (iblk m c 1 t) (V m c main_arg2) (V m c main_arg3) (V m c main_arg4) (V m c main_arg5)
      (V m c main_arg6) (V m c main_arg7) j
    = result m c (((cfg0.win 8).blk t).view.emb j)
  refine curve_at_rows (m := 4096) (m' := 131072) (iblk m c 0 t) (V m c main_arg0) (iblk m c 1 t) (V m c main_arg1)
    (V m c main_arg2) (V m c main_arg3) (V m c main_arg4) (V m c main_arg5) (V m c main_arg6) (V m c main_arg7)
    j (((cfg0.win 8).blk t).view.emb j) ?_ ?_ ?_
  · intro k
    show V m c main_arg0 (((cfg0.win 0).blk t).view.emb (ix2 (j 0) k))
      = V m c main_arg0 (ix2 ((((cfg0.win 8).blk t).view.emb j) 0) k)
    refine congrArg _ (funext fun a => Fin.ext ?_)
    match a with
    | ⟨0, _⟩ =>
      show win0_0.index t (0 : Fin 2) * 4096 + 1 * (j 0).val = win0_8.index t (0 : Fin 2) * 4096 + 1 * (j 0).val
      omega
    | ⟨1, _⟩ => show win0_0.index t (1 : Fin 2) * 310 + 1 * k.val = k.val; omega
  · intro e
    show V m c main_arg1 (((cfg0.win 1).blk t).view.emb (ix2 (j 0) e))
      = V m c main_arg1 (ix2 ((((cfg0.win 8).blk t).view.emb j) 0) e)
    refine congrArg _ (funext fun a => Fin.ext ?_)
    match a with
    | ⟨0, _⟩ =>
      show win0_1.index t (0 : Fin 2) * 4096 + 1 * (j 0).val = win0_8.index t (0 : Fin 2) * 4096 + 1 * (j 0).val
      omega
    | ⟨1, _⟩ => show win0_1.index t (1 : Fin 2) * 100 + 1 * e.val = e.val; omega
  · show (j 1).val = win0_8.index t (1 : Fin 2) * 100 + 1 * (j 1).val
    omega

/-- An index of the result array is in point t's block iff each coordinate is in the block's range on its axis. -/
theorem mem_blk (t : Fin cfg0.N) (i : S131072x100.Idx) :
    i ∈ ((cfg0.win 8).blk t).view.set ↔ ∀ a : Fin 2, win0_8.index t a * S4096x100.size a ≤ (i a).val
      ∧ (i a).val < win0_8.index t a * S4096x100.size a + S4096x100.size a := by
  show i ∈ ((View.whole main_v0).slice (win0_8.rect t)).set ↔ _
  rw [View.set_slice_whole, Rect.mem_set_unit]
  exact Iff.rfl

/-- The 32 blocks tile the array: row r is in the block of point r / 4096. -/
theorem cover (i : S131072x100.Idx) :
    ∃ t : Fin cfg0.N, (cfg0.win 8).flush t = true ∧ i ∈ ((cfg0.win 8).blk t).view.set := by
  have hi0 : (i 0).val < 131072 := (i 0).isLt
  have hi1 : (i 1).val < 100 := (i 1).isLt
  have hq : (i 0).val / 4096 < 32 := by omega
  obtain ⟨-, -, -, -, -, -, -, -, -, -, -, -, -, a80, a81⟩ := idx_facts ⟨(i 0).val / 4096, hq⟩
  refine ⟨⟨(i 0).val / 4096, hq⟩, flush0_8 _, ?_⟩
  rw [mem_blk]
  intro a
  match a with
  | ⟨0, _⟩ =>
    show win0_8.index ⟨(i 0).val / 4096, hq⟩ (0 : Fin 2) * 4096 ≤ (i 0).val
      ∧ (i 0).val < win0_8.index ⟨(i 0).val / 4096, hq⟩ (0 : Fin 2) * 4096 + 4096
    rw [a80]
    show (i 0).val / 4096 * 4096 ≤ (i 0).val ∧ (i 0).val < (i 0).val / 4096 * 4096 + 4096
    omega
  | ⟨1, _⟩ =>
    show win0_8.index ⟨(i 0).val / 4096, hq⟩ (1 : Fin 2) * 100 ≤ (i 1).val
      ∧ (i 1).val < win0_8.index ⟨(i 0).val / 4096, hq⟩ (1 : Fin 2) * 100 + 100
    omega

/-- The result array after the run. -/
theorem final (c : Dev nD) : (dats m 0 c).arrAt 8 cfg0.N = result m c :=
  (dats m 0 c).arrAt_eq_of_cover 8 (result m c) (fun t _ => flushed_curve m c t) cover

/-- Every weakly fair execution of the idealized kernel ends with the result array at `curve` of the arguments as
    launched, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (Value.run_blocks m ρ)

end Cert.KernelIdeal.Whole

end
-- ==== Proof.RefCurve.lean ====
/- The reference's result, as the specification's `curve` of its arguments.

   Its three `where` stages (select between v and s · v on v ≥ 0, after a dot_general and a bias broadcast in two steps)
   are the three dense layers; the two column slices of the coefficients, each broadcast along the row, multiply t and
   t · t, and the sum is the result. -/
import proofs.«112590_j78881369358886_1_alg».proof.Proof.Gen.ReferenceIdeal.Read
import proofs.«112590_j78881369358886_1_alg».proof.Proof.Layers

noncomputable section

namespace Cert.ReferenceIdeal.RefCurve

open Cert.ReferenceIdeal Cert.ReferenceIdeal.Gen Cert.ReferenceIdeal.Read Idealize.ShloMosaic Idealize.ShloMosaic.TcCoe
open Idealize.ShloMosaic.ValueIdx Cert.Mlp

/-- The first `where`: the layer 310 → 10 on the rows of x. -/
theorem layer1 (x0 : FVec Ideal S131072x310 .f32) (x2 : FVec Ideal S310x10 .f32) (x3 : FVec Ideal S10 .f32) :
    val_main_v8 (F := Ideal) x0 x2 x3 = dense x0 x2 x3 := by
  unfold val_main_v8 val_main_v5 val_main_v7 val_main_v6 val_main_v4 val_main_v3 val_main_v2 val_main_v1 val_main_v0
    val_main_cst val_main_cst_0
  exact hostLayer_eq dot_S131072x310_S310x10_S131072x10_1_0_0_1_n_n dot_S131072x310_S310x10_S131072x10_1_0_0_1_n_n_wf rfl
    x0 x2 x3 bcast_S10_S1x10_1 bcast_S1x10_S131072x10_0_1 bcast_S_S131072x10

/-- The second: the layer 10 → 128 on the first layer's output. -/
theorem layer2 (x0 : FVec Ideal S131072x310 .f32) (x2 : FVec Ideal S310x10 .f32) (x3 : FVec Ideal S10 .f32)
    (x4 : FVec Ideal S10x128 .f32) (x5 : FVec Ideal S128 .f32) :
    val_main_v17 (F := Ideal) x0 x2 x3 x4 x5 = dense (dense x0 x2 x3) x4 x5 := by
  unfold val_main_v17 val_main_v14 val_main_v16 val_main_v15 val_main_v13 val_main_v12 val_main_v11 val_main_v10 val_main_v9
    val_main_cst_1 val_main_cst_2
  rw [layer1]
  exact hostLayer_eq dot_S131072x10_S10x128_S131072x128_1_0_0_1_n_n dot_S131072x10_S10x128_S131072x128_1_0_0_1_n_n_wf rfl
    (dense x0 x2 x3) x4 x5 bcast_S128_S1x128_1 bcast_S1x128_S131072x128_0_1 bcast_S_S131072x128

/-- The third: the layer 128 → 2; its output is the two coefficients of every row. -/
theorem layer3 (x0 : FVec Ideal S131072x310 .f32) (x2 : FVec Ideal S310x10 .f32) (x3 : FVec Ideal S10 .f32)
    (x4 : FVec Ideal S10x128 .f32) (x5 : FVec Ideal S128 .f32) (x6 : FVec Ideal S128x2 .f32) (x7 : FVec Ideal S2 .f32) :
    val_main_v26 (F := Ideal) x0 x2 x3 x4 x5 x6 x7 = coeffs x0 x2 x3 x4 x5 x6 x7 := by
  unfold val_main_v26 val_main_v23 val_main_v25 val_main_v24 val_main_v22 val_main_v21 val_main_v20 val_main_v19 val_main_v18
    val_main_cst_3 val_main_cst_4
  rw [layer2]
  exact hostLayer_eq dot_S131072x128_S128x2_S131072x2_1_0_0_1_n_n dot_S131072x128_S128x2_S131072x2_1_0_0_1_n_n_wf rfl
    (dense (dense x0 x2 x3) x4 x5) x6 x7 bcast_S2_S1x2_1 bcast_S1x2_S131072x2_0_1 bcast_S_S131072x2

/-- The reference's result array is `curve` of its eight arguments. -/
theorem result_curve (x0 : FVec Ideal S131072x310 .f32) (x1 : FVec Ideal S131072x100 .f32) (x2 : FVec Ideal S310x10 .f32)
    (x3 : FVec Ideal S10 .f32) (x4 : FVec Ideal S10x128 .f32) (x5 : FVec Ideal S128 .f32) (x6 : FVec Ideal S128x2 .f32)
    (x7 : FVec Ideal S2 .f32) :
    val_main_v34 (F := Ideal) x0 x1 x2 x3 x4 x5 x6 x7 = curve x0 x1 x2 x3 x4 x5 x6 x7 := by
  funext i
  obtain ⟨a, e, rfl⟩ : ∃ (a : Fin 131072) (e : Fin 100), i = ix2 a e := ⟨i 0, i 1, eq_ix2 i⟩
  have h0 : idx_main_v28 (idx_main_v29 (ix2 a e)) = ix2 a (0 : Fin 2) :=
    funext fun d => Fin.ext (by match d with | ⟨0, _⟩ => rfl | ⟨1, _⟩ => rfl)
  have h1 : idx_main_v31 (idx_main_v32 (ix2 a e)) = ix2 a (1 : Fin 2) :=
    funext fun d => Fin.ext (by match d with | ⟨0, _⟩ => rfl | ⟨1, _⟩ => rfl)
  rw [val_main_v34_apply, val_main_v30_apply, val_main_v33_apply, val_main_v29_apply, val_main_v28_apply,
    val_main_v32_apply, val_main_v31_apply, val_main_v27_apply, layer3, h0, h1]
  rfl

end Cert.ReferenceIdeal.RefCurve

end
-- ==== Proof.lean ====
/- The five claims of this certificate.

   Both programs compute, on the extended reals, the same function of the eight arguments: three dense layers with a
   leaky rectifier (310 → 10 → 128 → 2) give every row two coefficients c₀, c₁, and the result at (r, d) is
   c₀(r) · t(r, d) + c₁(r) · t(r, d)² (Proof/Mlp.lean, `curve`). The kernel computes it 4096 rows at a time, a matmul
   into a zero accumulator for each product; the reference computes it on all 131072 rows at once with dot_general.
   Both products are the same finite sums, the rectifier's two constants are the same binary32 words on both sides, and
   every entry of a row of the result depends on that row of the inputs only, so the 32 blocks the kernel writes are
   the 32 blocks of rows of the reference's array. No law of arithmetic beyond reading those sums is used, so the
   precondition (finite inputs) is never opened.

   The frames of the two kernel programs are the generated ones; the reference's frame is its generated run with the
   result dropped; the idealization rewrote nothing, so `preserves` is trivial. -/
import proofs.«112590_j78881369358886_1_alg».proof.Defs
import proofs.«112590_j78881369358886_1_alg».proof.Proof.Gen.Kernel
import proofs.«112590_j78881369358886_1_alg».proof.Proof.Gen.Kernel.Skeleton
import proofs.«112590_j78881369358886_1_alg».proof.Proof.Gen.Kernel.Launch
import proofs.«112590_j78881369358886_1_alg».proof.Proof.Gen.Kernel.Points
import proofs.«112590_j78881369358886_1_alg».proof.Proof.Gen.Kernel.Frame
import proofs.«112590_j78881369358886_1_alg».proof.Proof.Gen.KernelIdeal
import proofs.«112590_j78881369358886_1_alg».proof.Proof.Gen.KernelIdeal.Skeleton
import proofs.«112590_j78881369358886_1_alg».proof.Proof.Gen.KernelIdeal.Launch
import proofs.«112590_j78881369358886_1_alg».proof.Proof.Gen.KernelIdeal.Points
import proofs.«112590_j78881369358886_1_alg».proof.Proof.Gen.KernelIdeal.Frame
import proofs.«112590_j78881369358886_1_alg».proof.Proof.Gen.ReferenceIdeal
import proofs.«112590_j78881369358886_1_alg».proof.Proof.Gen.Pre_finite_inputs
import proofs.«112590_j78881369358886_1_alg».proof.Proof.Gen.KernelIdeal.Value
import proofs.«112590_j78881369358886_1_alg».proof.Proof.Gen.ReferenceIdeal.Run
import proofs.«112590_j78881369358886_1_alg».proof.Proof.Gen.ReferenceIdeal.Read
import proofs.«112590_j78881369358886_1_alg».proof.Proof.KernelWhole
import proofs.«112590_j78881369358886_1_alg».proof.Proof.RefCurve
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result forgotten. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The kernel's result array ends at `curve` of its arguments; the reference's at its composed term, which is
    `curve` of its arguments; the arguments agree. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v34_eq, Cert.ReferenceIdeal.RefCurve.result_curve,
    (hagree c).1, (hagree c).2.1, (hagree c).2.2.1, (hagree c).2.2.2.1, (hagree c).2.2.2.2.1,
    (hagree c).2.2.2.2.2.1, (hagree c).2.2.2.2.2.2.1, (hagree c).2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
